-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x1x1 : Shape := ⟨4, ![1024, 1024, 1, 1]⟩
abbrev S1024x32x8 : Shape := ⟨3, ![1024, 32, 8]⟩
abbrev S_ : Shape := ⟨0, ![]⟩

class Facts : Prop where
  bcast_S_S1024x1024x1x1 : S_.BroadcastsInDim S1024x1024x1x1 (![] : Fin 0 → Fin S1024x1024x1x1.rank)
  reducesTo_S1024x1024x1x1_S_d0_1_2_3 : S1024x1024x1x1.ReducesTo [0, 1, 2, 3] S_
  h_S_ : 0 < S_.numel
  bcast_S_S1024x32x8 : S_.BroadcastsInDim S1024x32x8 (![] : Fin 0 → Fin S1024x32x8.rank)
  reducesTo_S1024x32x8_S_d0_1_2 : S1024x32x8.ReducesTo [0, 1, 2] S_

variable [Facts]

def fn {F : FTy → Type} [FloatOps F] (main_arg0 : FVec F S1024x1024x1x1 .f32) (main_arg1 : FVec F S1024x32x8 .f32) : IVec S_ 1 :=
  let main_v0 : FVec F S1024x1024x1x1 .f32 := Host.absf main_arg0
  let main_cst : FVec F S_ .f32 := constant S_ .f32 0x7F800000#32
  let main_v1 : FVec F S1024x1024x1x1 .f32 := broadcastInDim S1024x1024x1x1 ![] bcast_S_S1024x1024x1x1 main_cst
  let main_v2 : IVec S1024x1024x1x1 1 := cmpf .olt main_v0 main_v1
  let main_c : IVec S_ 1 := constantI S_ 1 1#1
  let main_v3 : IVec S_ 1 := (fun x v => Host.reduce IntOp.andi x v reducesTo_S1024x1024x1x1_S_d0_1_2_3 h_S_) main_v2 main_c
  let main_v4 : FVec F S1024x32x8 .f32 := Host.absf main_arg1
  let main_cst_0 : FVec F S_ .f32 := constant S_ .f32 0x7F800000#32
  let main_v5 : FVec F S1024x32x8 .f32 := broadcastInDim S1024x32x8 ![] bcast_S_S1024x32x8 main_cst_0
  let main_v6 : IVec S1024x32x8 1 := cmpf .olt main_v4 main_v5
  let main_c_1 : IVec S_ 1 := constantI S_ 1 1#1
  let main_v7 : IVec S_ 1 := (fun x v => Host.reduce IntOp.andi x v reducesTo_S1024x32x8_S_d0_1_2 h_S_) main_v6 main_c_1
  let main_v8 : IVec S_ 1 := andi main_v3 main_v7
  main_v8
-- ==== Kernel.lean ====
abbrev S1024x1024x1x1 : Shape := ⟨4, ![1024, 1024, 1, 1]⟩
abbrev S1024x32x8 : Shape := ⟨3, ![1024, 32, 8]⟩
abbrev S1024x1024 : Shape := ⟨2, ![1024, 1024]⟩
abbrev S1024x256 : Shape := ⟨2, ![1024, 256]⟩
abbrev S256x1024 : Shape := ⟨2, ![256, 1024]⟩
abbrev S256x256 : Shape := ⟨2, ![256, 256]⟩
abbrev S1024x8x32 : Shape := ⟨3, ![1024, 8, 32]⟩
abbrev S8x32x1024 : Shape := ⟨3, ![8, 32, 1024]⟩
abbrev S1024x32 : Shape := ⟨2, ![1024, 32]⟩
abbrev S64x8x32 : Shape := ⟨3, ![64, 8, 32]⟩
abbrev S64x32 : Shape := ⟨2, ![64, 32]⟩
abbrev S64x32x1024 : Shape := ⟨3, ![64, 32, 1024]⟩
abbrev S64x1x32 : Shape := ⟨3, ![64, 1, 32]⟩
abbrev S1x32x1024 : Shape := ⟨3, ![1, 32, 1024]⟩
abbrev S32x1024 : Shape := ⟨2, ![32, 1024]⟩
abbrev S64x32x1 : Shape := ⟨3, ![64, 32, 1]⟩
abbrev S1024x32x1x1 : Shape := ⟨4, ![1024, 32, 1, 1]⟩
abbrev S1024x1056x1x1 : Shape := ⟨4, ![1024, 1056, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S1024x1024x1x1, .f32⟩
  | .hbm, ⟨1, _⟩ => ⟨S1024x32x8, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x32x8, .f32⟩
  | .hbm, ⟨6, _⟩ => ⟨S1024x8x32, .f32⟩
  | .hbm, ⟨7, _⟩ => ⟨S8x32x1024, .f32⟩
  | .hbm, ⟨8, _⟩ => ⟨S1024x32, .f32⟩
  | .hbm, ⟨9, _⟩ => ⟨S1024x32x1x1, .f32⟩
  | .hbm, ⟨10, _⟩ => ⟨S1024x1056x1x1, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S256x256, .f32⟩
  | .local _ .vmem, ⟨4, _⟩ => ⟨S256x256, .f32⟩
  | .local _ .vmem, ⟨5, _⟩ => ⟨S64x8x32, .f32⟩
  | .local _ .vmem, ⟨6, _⟩ => ⟨S64x8x32, .f32⟩
  | .local _ .vmem, ⟨7, _⟩ => ⟨S8x32x1024, .f32⟩
  | .local _ .vmem, ⟨8, _⟩ => ⟨S64x32, .f32⟩
  | .local _ .vmem, ⟨9, _⟩ => ⟨S64x32, .f32⟩
  | _, _ => ⟨S1024x1024x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1024x1024x1x1_S1024x1024 : S1024x1024x1x1.ShapeCasts S1024x1024
  shapeCasts_S1024x32x8_S1024x256 : S1024x32x8.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S1024x256_S1024x32x8 : S1024x256.ShapeCasts S1024x32x8
  transposes_S1024x32x8_S1024x8x32_0_2_1 : S1024x32x8.Transposes [0, 2, 1] S1024x8x32
  transposes_S1024x32x8_S8x32x1024_2_1_0 : S1024x32x8.Transposes [2, 1, 0] S8x32x1024
  inb_S64x8x32_S64x1x32_0_0_0 : ∀ a, (![0, 0, 0] : Fin 3 → Nat) a + S64x1x32.size a ≤ S64x8x32.size a
  h_S64x1x32 : 0 < S64x1x32.numel
  shapeCasts_S64x1x32_S64x32 : S64x1x32.ShapeCasts S64x32
  inb_S8x32x1024_S1x32x1024_0_0_0 : ∀ a, (![0, 0, 0] : Fin 3 → Nat) a + S1x32x1024.size a ≤ S8x32x1024.size a
  h_S1x32x1024 : 0 < S1x32x1024.numel
  shapeCasts_S1x32x1024_S32x1024 : S1x32x1024.ShapeCasts S32x1024
  shapeCasts_S64x32_S64x32x1 : S64x32.ShapeCasts S64x32x1
  shapeCasts_S32x1024_S1x32x1024 : S32x1024.ShapeCasts S1x32x1024
  broadcasts_S64x32x1_S64x32x1024 : S64x32x1.Broadcasts S64x32x1024
  broadcasts_S1x32x1024_S64x32x1024 : S1x32x1024.Broadcasts S64x32x1024
  inb_S64x8x32_S64x1x32_0_1_0 : ∀ a, (![0, 1, 0] : Fin 3 → Nat) a + S64x1x32.size a ≤ S64x8x32.size a
  inb_S8x32x1024_S1x32x1024_1_0_0 : ∀ a, (![1, 0, 0] : Fin 3 → Nat) a + S1x32x1024.size a ≤ S8x32x1024.size a
  inb_S64x8x32_S64x1x32_0_2_0 : ∀ a, (![0, 2, 0] : Fin 3 → Nat) a + S64x1x32.size a ≤ S64x8x32.size a
  inb_S8x32x1024_S1x32x1024_2_0_0 : ∀ a, (![2, 0, 0] : Fin 3 → Nat) a + S1x32x1024.size a ≤ S8x32x1024.size a
  inb_S64x8x32_S64x1x32_0_3_0 : ∀ a, (![0, 3, 0] : Fin 3 → Nat) a + S64x1x32.size a ≤ S64x8x32.size a
  inb_S8x32x1024_S1x32x1024_3_0_0 : ∀ a, (![3, 0, 0] : Fin 3 → Nat) a + S1x32x1024.size a ≤ S8x32x1024.size a
  inb_S64x8x32_S64x1x32_0_4_0 : ∀ a, (![0, 4, 0] : Fin 3 → Nat) a + S64x1x32.size a ≤ S64x8x32.size a
  inb_S8x32x1024_S1x32x1024_4_0_0 : ∀ a, (![4, 0, 0] : Fin 3 → Nat) a + S1x32x1024.size a ≤ S8x32x1024.size a
  inb_S64x8x32_S64x1x32_0_5_0 : ∀ a, (![0, 5, 0] : Fin 3 → Nat) a + S64x1x32.size a ≤ S64x8x32.size a
  inb_S8x32x1024_S1x32x1024_5_0_0 : ∀ a, (![5, 0, 0] : Fin 3 → Nat) a + S1x32x1024.size a ≤ S8x32x1024.size a
  inb_S64x8x32_S64x1x32_0_6_0 : ∀ a, (![0, 6, 0] : Fin 3 → Nat) a + S64x1x32.size a ≤ S64x8x32.size a
  inb_S8x32x1024_S1x32x1024_6_0_0 : ∀ a, (![6, 0, 0] : Fin 3 → Nat) a + S1x32x1024.size a ≤ S8x32x1024.size a
  inb_S64x8x32_S64x1x32_0_7_0 : ∀ a, (![0, 7, 0] : Fin 3 → Nat) a + S64x1x32.size a ≤ S64x8x32.size a
  inb_S8x32x1024_S1x32x1024_7_0_0 : ∀ a, (![7, 0, 0] : Fin 3 → Nat) a + S1x32x1024.size a ≤ S8x32x1024.size a
  reduces_S64x32x1024_S64x32 : S64x32x1024.Reduces [2] S64x32
  inb_S64x32_S64x32_0_0 : ∀ a, (![0, 0] : Fin 2 → Nat) a + S64x32.size a ≤ S64x32.size a
  h_S64x32 : 0 < S64x32.numel
  shapeCasts_S1024x32_S1024x32x1x1 : S1024x32.ShapeCasts S1024x32x1x1
  concatenates_S1024x1024x1x1_S1024x32x1x1_S1024x1056x1x1_d1 : Shape.Concatenates [S1024x1024x1x1, S1024x32x1x1] S1024x1056x1x1 1
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8x32.size a ≤ S1024x8x32.size a
  hwx1_0 : ∀ i : grid1.Coords, EltTy.bits .f32 = 32 ∨ (Rect.block (s := S1024x8x32) S64x8x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x32x1024.size a ≤ S8x32x1024.size a
  hwx1_1 : ∀ i : grid1.Coords, EltTy.bits .f32 = 32 ∨ (Rect.block (s := S8x32x1024) S8x32x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S1024x32.size a
  hwx1_2 : ∀ i : grid1.Coords, EltTy.bits .f32 = 32 ∨ (Rect.block (s := S1024x32) S64x32.size (cc1_transform_2 i) (hinb1_2 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S64x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x1024x1x1 : Shape := ⟨4, ![1024, 1024, 1, 1]⟩
abbrev S1024x32x8 : Shape := ⟨3, ![1024, 32, 8]⟩
abbrev S1024x1024 : Shape := ⟨2, ![1024, 1024]⟩
abbrev S1024x256 : Shape := ⟨2, ![1024, 256]⟩
abbrev S1x1024x32x8 : Shape := ⟨4, ![1, 1024, 32, 8]⟩
abbrev S1024x1x32x8 : Shape := ⟨4, ![1024, 1, 32, 8]⟩
abbrev S1024x1024x32x8 : Shape := ⟨4, ![1024, 1024, 32, 8]⟩
abbrev S_ : Shape := ⟨0, ![]⟩
abbrev S1024x1024x32 : Shape := ⟨3, ![1024, 1024, 32]⟩
abbrev S1024x32 : Shape := ⟨2, ![1024, 32]⟩
abbrev S1024x32x1x1 : Shape := ⟨4, ![1024, 32, 1, 1]⟩
abbrev S1024x1056x1x1 : Shape := ⟨4, ![1024, 1056, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024x1x1, .f32⟩
  | .hbm, ⟨1, _⟩ => ⟨S1024x32x8, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x32x8, .f32⟩
  | .hbm, ⟨6, _⟩ => ⟨S1x1024x32x8, .f32⟩
  | .hbm, ⟨7, _⟩ => ⟨S1024x1x32x8, .f32⟩
  | .hbm, ⟨8, _⟩ => ⟨S1024x1024x32x8, .f32⟩
  | .hbm, ⟨9, _⟩ => ⟨S1024x1024x32x8, .f32⟩
  | .hbm, ⟨10, _⟩ => ⟨S1024x1024x32x8, .f32⟩
  | .hbm, ⟨11, _⟩ => ⟨S1024x1024x32x8, .f32⟩
  | .hbm, ⟨12, _⟩ => ⟨S_, .f32⟩
  | .hbm, ⟨13, _⟩ => ⟨S1024x1024x32, .f32⟩
  | .hbm, ⟨14, _⟩ => ⟨S1024x1024x32, .f32⟩
  | .hbm, ⟨15, _⟩ => ⟨S1024x1024x32, .f32⟩
  | .hbm, ⟨16, _⟩ => ⟨S_, .f32⟩
  | .hbm, ⟨17, _⟩ => ⟨S1024x32, .f32⟩
  | .hbm, ⟨18, _⟩ => ⟨S_, .f32⟩
  | .hbm, ⟨19, _⟩ => ⟨S1024x32, .f32⟩
  | .hbm, ⟨20, _⟩ => ⟨S1024x32, .f32⟩
  | .hbm, ⟨21, _⟩ => ⟨S1024x32x1x1, .f32⟩
  | .hbm, ⟨22, _⟩ => ⟨S1024x1024x1x1, .f32⟩
  | .hbm, ⟨23, _⟩ => ⟨S1024x1056x1x1, .f32⟩
  | _, _ => ⟨S1024x1024x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  shapeCasts_S1024x1024x1x1_S1024x1024 : S1024x1024x1x1.ShapeCasts S1024x1024
  shapeCasts_S1024x32x8_S1024x256 : S1024x32x8.ShapeCasts S1024x256
  shapeCasts_S1024x256_S1024x32x8 : S1024x256.ShapeCasts S1024x32x8
  bcast_S1024x32x8_S1x1024x32x8_1_2_3 : S1024x32x8.BroadcastsInDim S1x1024x32x8 (![1, 2, 3] : Fin 3 → Fin S1x1024x32x8.rank)
  bcast_S1024x32x8_S1024x1x32x8_0_2_3 : S1024x32x8.BroadcastsInDim S1024x1x32x8 (![0, 2, 3] : Fin 3 → Fin S1024x1x32x8.rank)
  bcast_S1x1024x32x8_S1024x1024x32x8_0_1_2_3 : S1x1024x32x8.BroadcastsInDim S1024x1024x32x8 (![0, 1, 2, 3] : Fin 4 → Fin S1024x1024x32x8.rank)
  bcast_S1024x1x32x8_S1024x1024x32x8_0_1_2_3 : S1024x1x32x8.BroadcastsInDim S1024x1024x32x8 (![0, 1, 2, 3] : Fin 4 → Fin S1024x1024x32x8.rank)
  reducesTo_S1024x1024x32x8_S1024x1024x32_d3 : S1024x1024x32x8.ReducesTo [3] S1024x1024x32
  h_S_ : 0 < S_.numel
  reducesTo_S1024x1024x32_S1024x32_d0 : S1024x1024x32.ReducesTo [0] S1024x32
  bcast_S_S1024x32 : S_.BroadcastsInDim S1024x32 (![] : Fin 0 → Fin S1024x32.rank)
  shapeCasts_S1024x32_S1024x32x1x1 : S1024x32.ShapeCasts S1024x32x1x1
  shapeCasts_S1024x1024_S1024x1024x1x1 : S1024x1024.ShapeCasts S1024x1024x1x1
  concatenates_S1024x1024x1x1_S1024x32x1x1_S1024x1056x1x1_d1 : Shape.Concatenates [S1024x1024x1x1, S1024x32x1x1] S1024x1056x1x1 1
  dot_S1024x1024_S1024x256_S1024x256_1_0_0_1_n_n_wf : DotDims.WF S1024x1024 S1024x256 S1024x256 [1] [0] [0] [1] [] []

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.Spec.lean ====
/-
  The mathematics of the certificate, stated once over literal shapes and the extended reals.

  With `M = xf · Tf` (a 1024 × 1024 by 1024 × 256 product, its 256 columns read as 32 × 8), both programs compute

      out (i, o) = (∑ j, exp (-(∑ k, |M (i, o, k) - M (j, o, k)|))) - 1        (i, j < 1024, o < 32, k < 8)

  and return it joined after the first argument. The kernel reads `M` through two transposed copies,
  `Mi (i, k, o) = M (i, o, k)` and `Mt (k, o, j) = M (j, o, k)`, so its form of the same sum is stated too
  (`pairT`), with the one-line law that joins the two (`pairT_transposed`).
-/
import Idealize.ShloMosaic.PureOps.Ideal
import Idealize.ShloMosaic.PureOps.Ideal.Laws
import Idealize.ShloMosaic.Lib.ValueIdx

noncomputable section

namespace Cert.PairwiseL1

open Idealize.ShloMosaic Idealize.ShloMosaic.ValueIdx

/-- The literal `1.0` both programs subtract (the same word on both sides: never evaluated). -/
abbrev one : EReal := Ideal.ofBits .f32 0x3F800000#32

/-- The absolute value as the ideal instance reads it (one function on both sides: never opened). -/
abbrev absE (x : EReal) : EReal := FloatOps.absf (F := Ideal) (φ := .f32) x

/-- The matrix product, entry (r, q): the sum over the contracted axis. -/
def prod (A : (⟨2, ![1024, 1024]⟩ : Shape).Idx → EReal) (B : (⟨2, ![1024, 256]⟩ : Shape).Idx → EReal) :
    (⟨2, ![1024, 256]⟩ : Shape).Idx → EReal :=
  fun i => ∑ k : Fin 1024, A (ix2 (n0 := 1024) (n1 := 1024) (i 0) k) * B (ix2 (n0 := 1024) (n1 := 256) k (i 1))

theorem prod_apply (A : (⟨2, ![1024, 1024]⟩ : Shape).Idx → EReal) (B : (⟨2, ![1024, 256]⟩ : Shape).Idx → EReal)
    (r : Fin 1024) (q : Fin 256) :
    prod A B (ix2 r q) = ∑ k : Fin 1024, A (ix2 r k) * B (ix2 k q) := rfl

/-- The pairwise sum over `M` in its natural layout [1024, 32, 8]. -/
def pair (M : (⟨3, ![1024, 32, 8]⟩ : Shape).Idx → EReal) : (⟨2, ![1024, 32]⟩ : Shape).Idx → EReal :=
  fun i => (∑ j : Fin 1024, Ideal.exp (-(∑ k : Fin 8,
    absE (M (ix3 (n0 := 1024) (n1 := 32) (n2 := 8) (i 0) (i 1) k) - M (ix3 (n0 := 1024) (n1 := 32) (n2 := 8) j (i 1) k))))) - one

theorem pair_apply (M : (⟨3, ![1024, 32, 8]⟩ : Shape).Idx → EReal) (i : Fin 1024) (o : Fin 32) :
    pair M (ix2 i o) = (∑ j : Fin 1024, Ideal.exp (-(∑ k : Fin 8, absE (M (ix3 i o k) - M (ix3 j o k))))) - one := rfl

/-- The same sum over the two transposed copies the kernel reads: `Mi` [1024, 8, 32] and `Mt` [8, 32, 1024]. -/
def pairT (Mi : (⟨3, ![1024, 8, 32]⟩ : Shape).Idx → EReal) (Mt : (⟨3, ![8, 32, 1024]⟩ : Shape).Idx → EReal) :
    (⟨2, ![1024, 32]⟩ : Shape).Idx → EReal :=
  fun i => (∑ j : Fin 1024, Ideal.exp (-(∑ k : Fin 8,
    absE (Mi (ix3 (n0 := 1024) (n1 := 8) (n2 := 32) (i 0) k (i 1)) - Mt (ix3 (n0 := 8) (n1 := 32) (n2 := 1024) k (i 1) j))))) - one

theorem pairT_apply (Mi : (⟨3, ![1024, 8, 32]⟩ : Shape).Idx → EReal) (Mt : (⟨3, ![8, 32, 1024]⟩ : Shape).Idx → EReal)
    (i : Fin 1024) (o : Fin 32) :
    pairT Mi Mt (ix2 i o) = (∑ j : Fin 1024, Ideal.exp (-(∑ k : Fin 8, absE (Mi (ix3 i k o) - Mt (ix3 k o j))))) - one := rfl

/-- If `Mi` and `Mt` are the two transposes of `M`, the kernel's form is the natural one. -/
theorem pairT_transposed (M : (⟨3, ![1024, 32, 8]⟩ : Shape).Idx → EReal)
    (Mi : (⟨3, ![1024, 8, 32]⟩ : Shape).Idx → EReal) (Mt : (⟨3, ![8, 32, 1024]⟩ : Shape).Idx → EReal)
    (hi : ∀ (i : Fin 1024) (k : Fin 8) (o : Fin 32), Mi (ix3 i k o) = M (ix3 i o k))
    (ht : ∀ (k : Fin 8) (o : Fin 32) (j : Fin 1024), Mt (ix3 k o j) = M (ix3 j o k)) :
    pairT Mi Mt = pair M := by
  funext i
  obtain ⟨a, o, rfl⟩ : ∃ (a : Fin 1024) (o : Fin 32), i = ix2 a o := ⟨i 0, i 1, eq_ix2 i⟩
  rw [pairT_apply, pair_apply]
  simp only [hi, ht]

end Cert.PairwiseL1

end
-- ==== Proof.MatmulRegion.lean ====
import proofs.«111433_j85246510891072_1_alg».proof.Proof.Gen.KernelIdeal.Frame
import proofs.«111433_j85246510891072_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatmulRegion

open Idealize.ShloMosaic Idealize.ShloMosaic.TcCoe Idealize.SL.Sem Idealize.ShloMosaic.ValueIdx
open Cert.KernelIdeal Cert.KernelIdeal.Gen
open Idealize.ShloMosaic.Pipeline (Dat)

/-! ## The product the body stores, entry by entry -/

/-- The contraction record of the body's product: [256, 1024] by [1024, 256], axis 1 against axis 0. -/
abbrev mm := dot_S256x1024_S1024x256_S256x256_1_0_0_1_n_n

/-- The left operand is read at the result's row … -/
theorem lhs_row (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
/-- … and at the contracted position on its second axis. -/
theorem lhs_contr (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
/-- The right operand is read at the contracted position on its first axis … -/
theorem rhs_contr (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
/-- … and at the result's column. -/
theorem rhs_col (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The stored block, entry (p, q): the sum over the contracted axis of the loaded blocks' products. -/
theorem pay_apply (x0 : Vec Ideal S256x1024 .f32) (x1 : Vec Ideal S1024x256 .f32) (p : Fin 256) (q : Fin 256) :
    k0_pay1 (F := Ideal) x0 x1 (ix2 p q) = ∑ k : Fin 1024, x0 (ix2 p k) * x1 (ix2 k q) := by
  unfold k0_pay1
  rw [shapeCast_self, shapeCast_self]
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p q) ((contrEquiv1 dot_S256x1024_S1024x256_S256x256_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x256_S256x256_1_0_0_1_n_n.rhsIdx (ix2 p q) ((contrEquiv1 dot_S256x1024_S1024x256_S256x256_1_0_0_1_n_n 1024 rfl rfl).symm k) = ix2 k q := funext fun a => Fin.ext (by
    match a with
    | ⟨0, _⟩ => exact (rhs_contr _ _).trans hk
    | ⟨1, _⟩ => exact rhs_col _ _)
  rw [el, er]

variable (V : (c : Dev nD) → (b : Ref sig .tc) → Buf (Elt Ideal) ((c : Thread nD τ).loc b))

/-- The array the first region finds under its first operand, at its literal type. -/
abbrev lhsArr (c : Dev nD) : S1024x1024.Idx → EReal := V c main_v0
/-- The array the first region finds under its second operand. -/
abbrev rhsArr (c : Dev nD) : S1024x256.Idx → EReal := V c main_v1
/-- What the first region leaves in its result array. -/
abbrev outArr (c : Dev nD) : S1024x256.Idx → EReal := (dat0 (F := Ideal) V c).arrAt 2 cfg0.N

/-! ## From the blocks to the array -/

/-- The body's loads and its store start at the origin of their blocks. -/
theorem origin_zero : (![0, 0] : Fin 2 → Nat) = fun _ => 0 := funext fun a => by fin_cases a <;> rfl

/-- The printed block maps, decided over the four points: the left block moves down its array with the
    result's block, the right block is the whole right array, and the result's block at point `t` is the
    `t`-th block of 256 rows, at full width. -/
theorem block_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 3
    ∧ win0_2.index t (1 : Fin 2) = 0 :=
  (by decide +kernel : ∀ t : Fin grid0.N, _)

/-- Every one of the four row blocks of the result is some point's. -/
theorem block_onto : ∀ b : Fin 4, ∃ t : Fin cfg0.N, win0_2.index t = ![b.val, 0] :=
  (by decide +kernel : ∀ b : Fin 4, ∃ t : Fin grid0.N, win0_2.index t = ![b.val, 0])

/-- Row `p` of the left block at point `t` is the left array's row under row `p` of the result's block. -/
theorem lhs_block_apply (c : Dev nD) (t : Fin cfg0.N) (p : Fin 256) (q : Fin 256) (k : Fin 1024) :
    iblk0 (F := Ideal) V c 0 t (ix2 p k)
      = V c main_v0 (ix2 (n0 := 1024) (n1 := 1024) ((((cfg0.win 2).blk t).view.emb (ix2 p q)) 0) k) := by
  obtain ⟨e0, e1, e2, e3, e4, e5⟩ := block_maps t
  show V c main_v0 (((cfg0.win 0).blk t).view.emb (ix2 p k)) = _
  refine congrArg (V c main_v0) (funext fun a => Fin.ext ?_)
  match a with
  | ⟨0, _⟩ => show win0_0.index t (0 : Fin 2) * 256 + 1 * p.val = win0_2.index t (0 : Fin 2) * 256 + 1 * p.val; omega
  | ⟨1, _⟩ => show win0_0.index t (1 : Fin 2) * 1024 + 1 * k.val = k.val; omega

/-- Column `q` of the right block at any point is the right array's column under column `q` of the result's block. -/
theorem rhs_block_apply (c : Dev nD) (t : Fin cfg0.N) (p : Fin 256) (q : Fin 256) (k : Fin 1024) :
    iblk0 (F := Ideal) V c 1 t (ix2 k q)
      = V c main_v1 (ix2 (n0 := 1024) (n1 := 256) k ((((cfg0.win 2).blk t).view.emb (ix2 p q)) 1)) := by
  obtain ⟨e0, e1, e2, e3, e4, e5⟩ := block_maps t
  show V c main_v1 (((cfg0.win 1).blk t).view.emb (ix2 k q)) = _
  refine congrArg (V c main_v1) (funext fun a => Fin.ext ?_)
  match a with
  | ⟨0, _⟩ => show win0_1.index t (0 : Fin 2) * 1024 + 1 * k.val = k.val; omega
  | ⟨1, _⟩ => show win0_1.index t (1 : Fin 2) * 256 + 1 * q.val = win0_2.index t (1 : Fin 2) * 256 + 1 * q.val; omega

/-- WHAT POINT `t` WRITES BACK is block `t` of the product of the two operand arrays. -/
theorem flushed_eq (c : Dev nD) (t : Fin cfg0.N) :
    (dat0 (F := Ideal) V c).flushed 2 t
      = ((cfg0.win 2).blk t).view.read (Elt Ideal) (Cert.PairwiseL1.prod (V c main_v0) (V c main_v1)) := by
  show (cfg0.win 2).cut (grid0.coords t) ((dat0 V c).after 2 t) = _
  rw [after0_2]
  unfold out0_2
  rw [View.canon_unit_zero origin_zero]
  simp only [View.ld_unit_zero (S := S256x1024) origin_zero, View.ld_unit_zero (S := S1024x256) origin_zero]
  funext j
  obtain ⟨p, q, rfl⟩ : ∃ (p : Fin 256) (q : Fin 256), j = ix2 p q := ⟨j 0, j 1, eq_ix2 (n0 := 256) (n1 := 256) j⟩
  show k0_pay1 (F := Ideal) (iblk0 V c 0 t) (iblk0 V c 1 t) (ix2 p q)
    = Cert.PairwiseL1.prod (V c main_v0) (V c main_v1) (((cfg0.win 2).blk t).view.emb (ix2 p q))
  refine (pay_apply _ _ p q).trans ?_
  unfold Cert.PairwiseL1.prod
  exact Finset.sum_congr rfl fun k _ => by rw [lhs_block_apply V c t p q k, rhs_block_apply V c t p q k]

/-- An index of the result array is in point `t`'s block iff each coordinate is in the block's range on its axis. -/
theorem mem_blk (t : Fin cfg0.N) (i : S1024x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v2).slice (win0_2.rect t)).set ↔ _
  rw [View.set_slice_whole, Rect.mem_set_unit]
  exact Iff.rfl

/-- The four row blocks cover the result array: row `r` lies in block `r / 256`. -/
theorem covered (i : S1024x256.Idx) :
    ∃ t : Fin cfg0.N, (cfg0.win 2).flush t = true ∧ i ∈ ((cfg0.win 2).blk t).view.set := by
  have hi0 : (i 0).val < 1024 := (i 0).isLt
  have hi1 : (i 1).val < 256 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- The first region's result array is the matrix product of its two operand arrays. -/
theorem array_eq (c : Dev nD) : outArr V c = Cert.PairwiseL1.prod (lhsArr V c) (rhsArr V c) :=
  (dat0 (F := Ideal) V c).arrAt_eq_of_cover 2 (Cert.PairwiseL1.prod (V c main_v0) (V c main_v1))
    (fun t _ => flushed_eq V c t) covered

end Cert.KernelIdeal.MatmulRegion

end
-- ==== Proof.PairRegion.lean ====
import proofs.«111433_j85246510891072_1_alg».proof.Proof.Gen.KernelIdeal.Frame
import proofs.«111433_j85246510891072_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PairRegion

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The array the second region finds under its first operand (the query layout [1024, 8, 32]). -/
abbrev qArr (c : Dev nD) : S1024x8x32.Idx → EReal := V c main_v4
/-- The array the second region finds under its second operand (the resident layout [8, 32, 1024]). -/
abbrev tArr (c : Dev nD) : S8x32x1024.Idx → EReal := V c main_v5
/-- What the second region leaves in its result array. -/
abbrev outArr (c : Dev nD) : S1024x32.Idx → EReal := (dat1 (F := Ideal) V c).arrAt 2 cfg1.N

open Cert.PairwiseL1 (absE one pairT pairT_apply)

/-! ## Pointwise operations of the ideal instance read at an index -/

/-- The absolute value of a vector at an index is the absolute value of the element. -/
theorem absf_apply {s : Shape} (a : FVec Ideal s .f32) (i : s.Idx) : absf a i = absE (a i) := rfl

/-- The exponential of a vector at an index is the exponential of the element. -/
theorem exp_apply {s : Shape} (a : FVec Ideal s .f32) (i : s.Idx) : exp a i = Ideal.exp (a i) := rfl

/-! ## The two broadcasts of the pairwise difference, read at an index -/

/-- A query slice [64, 1, 32] read as the matrix [64, 32]: at (i, o) it is the slice at (i, 0, o). -/
theorem squeeze_apply (l : S64x1x32.Idx → EReal) (h1 : S64x1x32.ShapeCasts S64x32) (i : Fin 64) (o : Fin 32) :
    shapeCast S64x32 l h1 (ix2 i o) = l (ix3 i (0 : Fin 1) o) :=
  shapeCast_apply l h1 (ix2 i o) (ix3 i (0 : Fin 1) o) (by
    rw [Shape.rowMajor_val_three, Shape.rowMajor_val_two]
    show (i.val * 1 + 0) * 32 + o.val = i.val * 32 + o.val
    omega)

/-- A matrix [64, 32] given a trailing unit axis and repeated along it 1024 times: at (i, o, j) it is the matrix at
    (i, o), whatever j. -/
theorem column_apply (q : S64x32.Idx → EReal) (h2 : S64x32.ShapeCasts S64x32x1) (h3 : S64x32x1.Broadcasts S64x32x1024)
    (i : Fin 64) (o : Fin 32) (j : Fin 1024) :
    broadcastTo S64x32x1024 (shapeCast S64x32x1 q h2) h3 (ix3 i o j) = q (ix2 i o) := by
  refine (broadcastTo_apply _ h3 (ix3 i o j) (ix3 i o (0 : Fin 1)) fun ax => ?_).trans
    (shapeCast_apply q h2 (ix3 i o (0 : Fin 1)) (ix2 i o) ?_)
  · match ax with
    | ⟨0, _⟩ => rfl
    | ⟨1, _⟩ => rfl
    | ⟨2, _⟩ => rfl
  · rw [Shape.rowMajor_val_three, Shape.rowMajor_val_two]
    show i.val * 32 + o.val = (i.val * 32 + o.val) * 1 + 0
    omega

/-- A resident slice [1, 32, 1024], read as a matrix, given back its leading unit axis and repeated along it 64 times:
    at (i, o, j) it is the slice at (0, o, j), whatever i. -/
theorem resident_apply (r : S1x32x1024.Idx → EReal) (g1 : S1x32x1024.ShapeCasts S32x1024) (g2 : S32x1024.ShapeCasts S1x32x1024)
    (g3 : S1x32x1024.Broadcasts S64x32x1024) (i : Fin 64) (o : Fin 32) (j : Fin 1024) :
    broadcastTo S64x32x1024 (shapeCast S1x32x1024 (shapeCast S32x1024 r g1) g2) g3 (ix3 i o j) = r (ix3 (0 : Fin 1) o j) := by
  refine (broadcastTo_apply _ g3 (ix3 i o j) (ix3 (0 : Fin 1) o j) fun ax => ?_).trans
    ((shapeCast_ab_1ab_apply _ g2 (0 : Fin 1) o j).trans (shapeCast_1ab_ab_apply r g1 o j))
  match ax with
  | ⟨0, _⟩ => rfl
  | ⟨1, _⟩ => rfl
  | ⟨2, _⟩ => rfl

/-- The difference under one term of the distance, at (i, o, j), the query side already a matrix. -/
theorem diff_apply (q : FVec Ideal S64x32 .f32) (r : Vec Ideal S1x32x1024 .f32)
    (h2 : S64x32.ShapeCasts S64x32x1) (h3 : S64x32x1.Broadcasts S64x32x1024) (g1 : S1x32x1024.ShapeCasts S32x1024)
    (g2 : S32x1024.ShapeCasts S1x32x1024) (g3 : S1x32x1024.Broadcasts S64x32x1024) (i : Fin 64) (o : Fin 32) (j : Fin 1024) :
    subf (F := Ideal) (φ := .f32) (broadcastTo S64x32x1024 (shapeCast S64x32x1 q h2) h3)
        (broadcastTo S64x32x1024 (shapeCast S1x32x1024 (shapeCast S32x1024 r g1) g2) g3) (ix3 i o j)
      = q (ix2 i o) - r (ix3 (0 : Fin 1) o j) := by
  rw [subf_apply, column_apply, resident_apply]

/-! ## The body's arithmetic at an index

Each payload is read at one index over VARIABLES of the slices' types; the steps k = 0 … 7 differ only in which
slices they are given. The zero word's value is removed only at the end. -/

/-- The accumulator after the steps k = 0, 1, 2. -/
theorem acc012_apply (l0 : Vec Ideal S64x1x32 .f32) (m0 : Vec Ideal S1x32x1024 .f32) (l1 : Vec Ideal S64x1x32 .f32)
    (m1 : Vec Ideal S1x32x1024 .f32) (l2 : Vec Ideal S64x1x32 .f32) (m2 : Vec Ideal S1x32x1024 .f32)
    (i : Fin 64) (o : Fin 32) (j : Fin 1024) :
    k1_pay2 l0 m0 l1 m1 l2 m2 (ix3 i o j)
      = Ideal.ofBits .f32 0x00000000#32 + absE (l0 (ix3 i (0 : Fin 1) o) - m0 (ix3 (0 : Fin 1) o j))
          + absE (l1 (ix3 i (0 : Fin 1) o) - m1 (ix3 (0 : Fin 1) o j))
          + absE (l2 (ix3 i (0 : Fin 1) o) - m2 (ix3 (0 : Fin 1) o j)) := by
  unfold k1_pay2
  simp only [addf_apply, absf_apply, diff_apply, squeeze_apply, broadcast_apply]
  rfl

/-- The k = 3 query slice as a matrix. -/
theorem q3_apply (l3 : Vec Ideal S64x1x32 .f32) (i : Fin 64) (o : Fin 32) :
    k1_pay3 l3 (ix2 i o) = l3 (ix3 i (0 : Fin 1) o) := by
  unfold k1_pay3
  exact squeeze_apply _ _ i o

/-- The accumulator after the steps k = 3, 4, 5, from what it was before them. -/
theorem acc345_apply (a : FVec Ideal S64x32x1024 .f32) (q3 : FVec Ideal S64x32 .f32) (m3 : Vec Ideal S1x32x1024 .f32)
    (l4 : Vec Ideal S64x1x32 .f32) (m4 : Vec Ideal S1x32x1024 .f32) (l5 : Vec Ideal S64x1x32 .f32) (m5 : Vec Ideal S1x32x1024 .f32)
    (i : Fin 64) (o : Fin 32) (j : Fin 1024) :
    k1_pay4 a q3 m3 l4 m4 l5 m5 (ix3 i o j)
      = a (ix3 i o j) + absE (q3 (ix2 i o) - m3 (ix3 (0 : Fin 1) o j))
          + absE (l4 (ix3 i (0 : Fin 1) o) - m4 (ix3 (0 : Fin 1) o j))
          + absE (l5 (ix3 i (0 : Fin 1) o) - m5 (ix3 (0 : Fin 1) o j)) := by
  unfold k1_pay4
  simp only [addf_apply, absf_apply, diff_apply, squeeze_apply]

/-- The k = 6 difference, before its absolute value. -/
theorem diff6_apply (l6 : Vec Ideal S64x1x32 .f32) (m6 : Vec Ideal S1x32x1024 .f32) (i : Fin 64) (o : Fin 32) (j : Fin 1024) :
    k1_pay5 l6 m6 (ix3 i o j) = l6 (ix3 i (0 : Fin 1) o) - m6 (ix3 (0 : Fin 1) o j) := by
  unfold k1_pay5
  simp only [diff_apply, squeeze_apply]

/-- The lane sum of a [64, 32, 1024] vector at (i, o): the sum over the last coordinate. -/
theorem laneSum_apply (src : FVec Ideal S64x32x1024 .f32) (h : S64x32x1024.Reduces [2] S64x32) (hφ : FKind.Formats .f32)
    (hacc : (0x00000000#32 : BitVec 32) = FKind.add.neutral .f32 hφ) (i : Fin 64) (o : Fin 32) :
    multiReduction (F := Ideal) .add [2] S64x32 src 0x00000000#32 h hφ hacc (ix2 i o) = ∑ j : Fin 1024, src (ix3 i o j) := by
  refine (Ideal.multiReduction_add_single src 0x00000000#32 h hφ hacc (ix2 i o)).trans ?_
  refine Finset.sum_congr rfl fun j _ => congrArg src (funext fun ax => Fin.ext ?_)
  match ax with
  | ⟨0, _⟩ => rfl
  | ⟨1, _⟩ => rfl
  | ⟨2, _⟩ => rfl

/-- The stored value at (i, o): the steps k = 6, 7 finish the distance, which is negated as 0 − acc, exponentiated,
    summed over j, and 1.0 is subtracted. -/
theorem stored_apply (a : FVec Ideal S64x32x1024 .f32) (d6 : FVec Ideal S64x32x1024 .f32) (l7 : Vec Ideal S64x1x32 .f32)
    (m7 : Vec Ideal S1x32x1024 .f32) (i : Fin 64) (o : Fin 32) :
    k1_pay1 a d6 l7 m7 (ix2 i o)
      = (∑ j : Fin 1024, Ideal.exp (Ideal.ofBits .f32 0x00000000#32
          - (a (ix3 i o j) + absE (d6 (ix3 i o j)) + absE (l7 (ix3 i (0 : Fin 1) o) - m7 (ix3 (0 : Fin 1) o j))))) - one := by
  unfold k1_pay1
  simp only [subf_apply, broadcast_apply]
  refine congrArg (· - one) ((laneSum_apply _ _ _ _ i o).trans (Finset.sum_congr rfl fun j _ => ?_))
  simp only [exp_apply, subf_apply, addf_apply, absf_apply, diff_apply, column_apply, resident_apply, squeeze_apply,
    broadcast_apply]
  rfl

/-! ## The sixteen loads, read at an index -/

/-- The load of the query block's slice at offset (0, k, 0), at (i, 0, o), reads the block at (i, k, o). -/
theorem ldQuery (x0 : Vec Ideal S64x8x32 .f32) (off : Fin 3 → Nat) (inb : ∀ a, off a + S64x1x32.size a ≤ S64x8x32.size a)
    (k : Fin 8) (h0 : off 0 = 0) (h1 : off 1 = k.val) (h2 : off 2 = 0) (i : Fin 64) (o : Fin 32) :
    View.ld x0 (Rect.unit (s := S64x8x32) off S64x1x32.size inb) (ix3 i (0 : Fin 1) o) = x0 (ix3 i k o) := by
  refine congrArg x0 (funext fun ax => Fin.ext ?_)
  match ax with
  | ⟨0, _⟩ => show off 0 + 1 * i.val = i.val; omega
  | ⟨1, _⟩ => show off 1 + 1 * 0 = k.val; omega
  | ⟨2, _⟩ => show off 2 + 1 * o.val = o.val; omega

/-- The load of the resident block's slice at offset (k, 0, 0), at (0, o, j), reads the block at (k, o, j). -/
theorem ldResident (x1 : Vec Ideal S8x32x1024 .f32) (off : Fin 3 → Nat) (inb : ∀ a, off a + S1x32x1024.size a ≤ S8x32x1024.size a)
    (k : Fin 8) (h0 : off 0 = k.val) (h1 : off 1 = 0) (h2 : off 2 = 0) (o : Fin 32) (j : Fin 1024) :
    View.ld x1 (Rect.unit (s := S8x32x1024) off S1x32x1024.size inb) (ix3 (0 : Fin 1) o j) = x1 (ix3 k o j) := by
  refine congrArg x1 (funext fun ax => Fin.ext ?_)
  match ax with
  | ⟨0, _⟩ => show off 0 + 1 * 0 = k.val; omega
  | ⟨1, _⟩ => show off 1 + 1 * o.val = o.val; omega
  | ⟨2, _⟩ => show off 2 + 1 * j.val = j.val; omega

/-! ## What the body leaves in the result block -/

theorem hz2 : (![0, 0] : Fin 2 → Nat) = fun _ => 0 := funext fun a => by fin_cases a <;> rfl

/-- THE BLOCK: from a query block x0 [64, 8, 32] and the resident array x1 [8, 32, 1024] the body leaves, at (i, o),
    the pairwise sum over all j of the exponential of minus the distance over k, less 1.0. The eight steps' terms,
    accumulated from the zero word onto the left, are the sum over k read backwards. -/
theorem block_apply (x0 : Vec Ideal S64x8x32 .f32) (x1 : Vec Ideal S8x32x1024 .f32) (i : Fin 64) (o : Fin 32) :
    out1_2 x0 x1 (ix2 i o)
      = (∑ j : Fin 1024, Ideal.exp (-(∑ k : Fin 8, absE (x0 (ix3 i k o) - x1 (ix3 k o j))))) - one := by
  unfold out1_2
  rw [View.canon_unit_zero hz2, stored_apply]
  refine congrArg (· - one) (Finset.sum_congr rfl fun j _ => congrArg Ideal.exp ?_)
  rw [acc345_apply, acc012_apply, q3_apply, diff6_apply,
    ldQuery x0 ![0, 0, 0] inb_S64x8x32_S64x1x32_0_0_0 0 rfl rfl rfl i o,
    ldQuery x0 ![0, 1, 0] inb_S64x8x32_S64x1x32_0_1_0 1 rfl rfl rfl i o,
    ldQuery x0 ![0, 2, 0] inb_S64x8x32_S64x1x32_0_2_0 2 rfl rfl rfl i o,
    ldQuery x0 ![0, 3, 0] inb_S64x8x32_S64x1x32_0_3_0 3 rfl rfl rfl i o,
    ldQuery x0 ![0, 4, 0] inb_S64x8x32_S64x1x32_0_4_0 4 rfl rfl rfl i o,
    ldQuery x0 ![0, 5, 0] inb_S64x8x32_S64x1x32_0_5_0 5 rfl rfl rfl i o,
    ldQuery x0 ![0, 6, 0] inb_S64x8x32_S64x1x32_0_6_0 6 rfl rfl rfl i o,
    ldQuery x0 ![0, 7, 0] inb_S64x8x32_S64x1x32_0_7_0 7 rfl rfl rfl i o,
    ldResident x1 ![0, 0, 0] inb_S8x32x1024_S1x32x1024_0_0_0 0 rfl rfl rfl o j,
    ldResident x1 ![1, 0, 0] inb_S8x32x1024_S1x32x1024_1_0_0 1 rfl rfl rfl o j,
    ldResident x1 ![2, 0, 0] inb_S8x32x1024_S1x32x1024_2_0_0 2 rfl rfl rfl o j,
    ldResident x1 ![3, 0, 0] inb_S8x32x1024_S1x32x1024_3_0_0 3 rfl rfl rfl o j,
    ldResident x1 ![4, 0, 0] inb_S8x32x1024_S1x32x1024_4_0_0 4 rfl rfl rfl o j,
    ldResident x1 ![5, 0, 0] inb_S8x32x1024_S1x32x1024_5_0_0 5 rfl rfl rfl o j,
    ldResident x1 ![6, 0, 0] inb_S8x32x1024_S1x32x1024_6_0_0 6 rfl rfl rfl o j,
    ldResident x1 ![7, 0, 0] inb_S8x32x1024_S1x32x1024_7_0_0 7 rfl rfl rfl o j,
    Ideal.ofBits_zero_f32, zero_add, zero_sub, Fin.sum_univ_eight]

/-- The same at any index of the block. -/
theorem block_apply_idx (x0 : Vec Ideal S64x8x32 .f32) (x1 : Vec Ideal S8x32x1024 .f32) (y : S64x32.Idx) :
    out1_2 x0 x1 y
      = (∑ j : Fin 1024, Ideal.exp (-(∑ k : Fin 8, absE (x0 (ix3 (y 0) k (y 1)) - x1 (ix3 k (y 1) j))))) - one := by
  obtain ⟨i, o, rfl⟩ : ∃ (i : Fin 64) (o : Fin 32), y = ix2 i o := ⟨y 0, y 1, eq_ix2 y⟩
  exact block_apply x0 x1 i o

/-! ## From blocks to the array -/

/-- The three index maps over the grid: the query window and the result window move with the point along their
    first axis, the resident window stays. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- The query window's block at point t is rows 64 t … 64 t + 63 of its array. -/
theorem queryBlock_apply (c : Dev nD) (t : Fin cfg1.N) (i : Fin 64) (k : Fin 8) (o : Fin 32) (r : Fin 1024)
    (hr : r.val = 64 * t.val + i.val) :
    (iblk1 V c 0 t : Vec Ideal S64x8x32 .f32) (ix3 i k o) = qArr V c (ix3 r k o) := by
  obtain ⟨e0, e1, e2, -⟩ := idx_facts t
  unfold iblk1
  show V c main_v4 (((cfg1.win 0).blk t).view.emb (ix3 i k o)) = V c main_v4 (ix3 r k o)
  refine congrArg (V c main_v4) (funext fun a => Fin.ext ?_)
  match a with
  | ⟨0, _⟩ => show win1_0.index t (0 : Fin 3) * 64 + 1 * i.val = r.val; omega
  | ⟨1, _⟩ => show win1_0.index t (1 : Fin 3) * 8 + 1 * k.val = k.val; omega
  | ⟨2, _⟩ => show win1_0.index t (2 : Fin 3) * 32 + 1 * o.val = o.val; omega

/-- The resident window's block at every point is its whole array. -/
theorem residentBlock_apply (c : Dev nD) (t : Fin cfg1.N) (k : Fin 8) (o : Fin 32) (j : Fin 1024) :
    (iblk1 V c 1 t : Vec Ideal S8x32x1024 .f32) (ix3 k o j) = tArr V c (ix3 k o j) := by
  obtain ⟨-, -, -, e3, e4, e5, -⟩ := idx_facts t
  unfold iblk1
  show V c main_v5 (((cfg1.win 1).blk t).view.emb (ix3 k o j)) = V c main_v5 (ix3 k o j)
  refine congrArg (V c main_v5) (funext fun a => Fin.ext ?_)
  match a with
  | ⟨0, _⟩ => show win1_1.index t (0 : Fin 3) * 8 + 1 * k.val = k.val; omega
  | ⟨1, _⟩ => show win1_1.index t (1 : Fin 3) * 32 + 1 * o.val = o.val; omega
  | ⟨2, _⟩ => show win1_1.index t (2 : Fin 3) * 1024 + 1 * j.val = j.val; omega

/-- WHAT POINT t WRITES BACK is block t of the pairwise sum of the two operand arrays. -/
theorem flushed_eq (c : Dev nD) (t : Fin cfg1.N) :
    (dat1 (F := Ideal) V c).flushed 2 t
      = ((cfg1.win 2).blk t).view.read (Elt Ideal) (pairT (qArr V c) (tArr V c)) := by
  show (cfg1.win 2).cut (grid1.coords t) ((dat1 V c).after 2 t) = _
  rw [after1_2]
  obtain ⟨-, -, -, -, -, -, e6, e7⟩ := idx_facts t
  have hN : cfg1.N = 16 := N_1
  have ht : t.val < 16 := by have := t.isLt; omega
  funext y
  have hy0 : (y 0).val < 64 := (y 0).isLt
  have hy1 : (y 1).val < 32 := (y 1).isLt
  have hl : (cfg1.win 2).xinj (grid1.coords t) y = ix2 (⟨(y 0).val, hy0⟩ : Fin 64) (⟨(y 1).val, hy1⟩ : Fin 32) := by
    funext a
    match a with
    | ⟨0, _⟩ => rfl
    | ⟨1, _⟩ => rfl
  have hr : ((cfg1.win 2).blk t).view.emb y
      = ix2 (⟨64 * t.val + (y 0).val, by omega⟩ : Fin 1024) (⟨(y 1).val, hy1⟩ : Fin 32) := by
    funext a; apply Fin.ext
    match a with
    | ⟨0, _⟩ => show win1_2.index t (0 : Fin 2) * 64 + 1 * (y 0).val = 64 * t.val + (y 0).val; omega
    | ⟨1, _⟩ => show win1_2.index t (1 : Fin 2) * 32 + 1 * (y 1).val = (y 1).val; omega
  show out1_2 (iblk1 V c 0 t) (iblk1 V c 1 t) ((cfg1.win 2).xinj (grid1.coords t) y)
    = pairT (qArr V c) (tArr V c) (((cfg1.win 2).blk t).view.emb y)
  rw [hl, hr, pairT_apply]
  refine (block_apply (iblk1 V c 0 t) (iblk1 V c 1 t) _ _).trans ?_
  refine congrArg (· - one) (Finset.sum_congr rfl fun j _ => congrArg Ideal.exp (congrArg Neg.neg
    (Finset.sum_congr rfl fun k _ => ?_)))
  rw [queryBlock_apply V c t ⟨(y 0).val, hy0⟩ k ⟨(y 1).val, hy1⟩ ⟨64 * t.val + (y 0).val, by omega⟩ rfl,
    residentBlock_apply V c t k ⟨(y 1).val, hy1⟩ j]

/-- An index of the result array is in point t's block iff each coordinate is in the block's range on its axis. -/
theorem mem_blk (t : Fin cfg1.N) (i : S1024x32.Idx) :
    i ∈ ((cfg1.win 2).blk t).view.set ↔ ∀ a : Fin 2, win1_2.index t a * S64x32.size a ≤ (i a).val
      ∧ (i a).val < win1_2.index t a * S64x32.size a + S64x32.size a := by
  show i ∈ ((View.whole main_v6).slice (win1_2.rect t)).set ↔ _
  rw [View.set_slice_whole, Rect.mem_set_unit]
  exact Iff.rfl

/-- Every row r of the result array is written back, by the point r / 64. -/
theorem covered (i : S1024x32.Idx) :
    ∃ t : Fin cfg1.N, (cfg1.win 2).flush t = true ∧ i ∈ ((cfg1.win 2).blk t).view.set := by
  have hN : cfg1.N = 16 := N_1
  have hi0 : (i 0).val < 1024 := (i 0).isLt
  have hi1 : (i 1).val < 32 := (i 1).isLt
  obtain ⟨t, ht⟩ : ∃ t : Fin cfg1.N, t.val = (i 0).val / 64 := ⟨⟨(i 0).val / 64, by omega⟩, rfl⟩
  obtain ⟨-, -, -, -, -, -, e6, e7⟩ := idx_facts t
  refine ⟨t, flush1_2 t, ?_⟩
  rw [mem_blk]
  intro a
  match a with
  | ⟨0, _⟩ =>
    show win1_2.index t (0 : Fin 2) * 64 ≤ (i 0).val ∧ (i 0).val < win1_2.index t (0 : Fin 2) * 64 + 64
    omega
  | ⟨1, _⟩ =>
    show win1_2.index t (1 : Fin 2) * 32 ≤ (i 1).val ∧ (i 1).val < win1_2.index t (1 : Fin 2) * 32 + 32
    omega

/-- The second region's result array is the pairwise sum of its two operand arrays. -/
theorem array_eq (c : Dev nD) : outArr V c = Cert.PairwiseL1.pairT (qArr V c) (tArr V c) :=
  (dat1 (F := Ideal) V c).arrAt_eq_of_cover 2 (pairT (qArr V c) (tArr V c)) (fun t _ => flushed_eq V c t) covered

end Cert.KernelIdeal.PairRegion

end
-- ==== Proof.KValue.lean ====
import proofs.«111433_j85246510891072_1_alg».proof.Proof.Gen.KernelIdeal.Frame
import proofs.«111433_j85246510891072_1_alg».proof.Proof.Spec
import proofs.«111433_j85246510891072_1_alg».proof.Proof.MatmulRegion
import proofs.«111433_j85246510891072_1_alg».proof.Proof.PairRegion
import Idealize.ShloMosaic.Lib.StableHlo.Run
import Idealize.ShloMosaic.Lib.Pipeline.Value
import Idealize.ShloMosaic.Lib.ValueIdx

set_option maxRecDepth 16384

noncomputable section

namespace Cert.KernelIdeal.ResultValue

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The first argument array as launched, at its literal type. -/
abbrev xArr (c : Dev nD) : S1024x1024x1x1.Idx → EReal := m ((c.tc : Thread nD τ).loc main_arg0)
/-- The second argument array as launched. -/
abbrev tArr (c : Dev nD) : S1024x32x8.Idx → EReal := m ((c.tc : Thread nD τ).loc main_arg1)

/-! ## The first host stretch: the two reshapes the first region reads -/

theorem entry0_lhs (c : Dev nD) :
    (V1 m ρ c main_v0 : S1024x1024.Idx → EReal) = shapeCast S1024x1024 (xArr m c) shapeCasts_S1024x1024x1x1_S1024x1024 := by
  show StableHlo.after hostOps0 (W0 m ρ c) (Proc.devRef .tc main_v0) = _
  after_results
  rfl

theorem entry0_rhs (c : Dev nD) :
    (V1 m ρ c main_v1 : S1024x256.Idx → EReal) = shapeCast S1024x256 (tArr m c) shapeCasts_S1024x32x8_S1024x256 := by
  show StableHlo.after hostOps0 (W0 m ρ c) (Proc.devRef .tc main_v1) = _
  after_results
  rfl

/-- At the first region's exit its result buffer holds what the region's write-backs leave. -/
theorem exit0 (c : Dev nD) :
    (W2 m ρ c (Proc.devRef .tc main_v2) : S1024x256.Idx → EReal) = MatmulRegion.outArr (V1 m ρ) c :=
  W2_arr m ρ c 2

/-! ## The second host stretch: the product read as [1024, 32, 8] and its two transposes -/

/-- The product array in its natural layout [1024, 32, 8]. -/
abbrev prod3 (c : Dev nD) : S1024x32x8.Idx → EReal :=
  shapeCast S1024x32x8 (MatmulRegion.outArr (V1 m ρ) c) shapeCasts_S1024x256_S1024x32x8

theorem entry1_q (c : Dev nD) :
    (V3 m ρ c main_v4 : S1024x8x32.Idx → EReal)
      = transpose S1024x8x32 [0, 2, 1] (prod3 m ρ c) transposes_S1024x32x8_S1024x8x32_0_2_1 := by
  show StableHlo.after hostOps1 (W2 m ρ c) (Proc.devRef .tc main_v4) = _
  after_results
  rw [exit0 m ρ c]
  rfl

theorem entry1_t (c : Dev nD) :
    (V3 m ρ c main_v5 : S8x32x1024.Idx → EReal)
      = transpose S8x32x1024 [2, 1, 0] (prod3 m ρ c) transposes_S1024x32x8_S8x32x1024_2_1_0 := by
  show StableHlo.after hostOps1 (W2 m ρ c) (Proc.devRef .tc main_v5) = _
  after_results
  rw [exit0 m ρ c]
  rfl

/-- At the second region's exit its result buffer holds what the region's write-backs leave. -/
theorem exit1 (c : Dev nD) :
    (W4 m ρ c (Proc.devRef .tc main_v6) : S1024x32.Idx → EReal) = PairRegion.outArr (V3 m ρ) c :=
  W4_arr m ρ c 2

/-- Nothing up to the second region's exit writes the first argument. -/
theorem exit1_arg0 (c : Dev nD) : (W4 m ρ c (Proc.devRef .tc main_arg0) : S1024x1024x1x1.Idx → EReal) = xArr m c := by
  rw [W4_of_ne m ρ c main_arg0 (by decide)]
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-! ## The last host stretch: the reshape and the join -/

theorem result0 (c : Dev nD) :
    (W5 m ρ c (Proc.devRef .tc main_v8) : S1024x1056x1x1.Idx → EReal)
      = concatenate S1024x1056x1x1 1 [⟨S1024x1024x1x1, xArr m c⟩, ⟨S1024x32x1x1, shapeCast S1024x32x1x1 (PairRegion.outArr (V3 m ρ) c) shapeCasts_S1024x32_S1024x32x1x1⟩] concatenates_S1024x1024x1x1_S1024x32x1x1_S1024x1056x1x1_d1 := by
  show StableHlo.after hostOps2 (W4 m ρ c) (Proc.devRef .tc main_v8) = _
  after_results
  rw [exit1_arg0 m ρ c, exit1 m ρ c]
  rfl

/-! ## The result as one function of the two arguments -/

/-- The product array is the product of the two reshaped arguments, read as [1024, 32, 8]. -/
theorem prod3_eq (c : Dev nD) :
    prod3 m ρ c = shapeCast S1024x32x8 (Cert.PairwiseL1.prod
      (shapeCast S1024x1024 (xArr m c) shapeCasts_S1024x1024x1x1_S1024x1024)
      (shapeCast S1024x256 (tArr m c) shapeCasts_S1024x32x8_S1024x256)) shapeCasts_S1024x256_S1024x32x8 := by
  show shapeCast S1024x32x8 (MatmulRegion.outArr (V1 m ρ) c) shapeCasts_S1024x256_S1024x32x8 = _
  rw [MatmulRegion.array_eq]
  show shapeCast S1024x32x8 (Cert.PairwiseL1.prod (V1 m ρ c main_v0 : S1024x1024.Idx → EReal) (V1 m ρ c main_v1 : S1024x256.Idx → EReal)) shapeCasts_S1024x256_S1024x32x8 = _
  rw [entry0_lhs m ρ c, entry0_rhs m ρ c]

/-- The second region reads the product through its two transposes, so what it leaves is the pairwise sum over the
    product in its natural layout. -/
theorem pair_eq (c : Dev nD) : PairRegion.outArr (V3 m ρ) c = Cert.PairwiseL1.pair (prod3 m ρ c) := by
  rw [PairRegion.array_eq]
  refine Cert.PairwiseL1.pairT_transposed (prod3 m ρ c) _ _ (fun i k o => ?_) (fun k o j => ?_)
  · show (V3 m ρ c main_v4 : S1024x8x32.Idx → EReal) (ix3 i k o) = _
    rw [entry1_q m ρ c]
    exact transpose_apply _ _ _ _ _ (fun b => by match b with | ⟨0, _⟩ => rfl | ⟨1, _⟩ => rfl | ⟨2, _⟩ => rfl)
  · show (V3 m ρ c main_v5 : S8x32x1024.Idx → EReal) (ix3 k o j) = _
    rw [entry1_t m ρ c]
    exact transpose_apply _ _ _ _ _ (fun b => by match b with | ⟨0, _⟩ => rfl | ⟨1, _⟩ => rfl | ⟨2, _⟩ => rfl)

/-- The kernel's result: the first argument, then the pairwise sums over the product, joined along axis 1. -/
theorem result_eq (c : Dev nD) :
    (W5 m ρ c (Proc.devRef .tc main_v8) : S1024x1056x1x1.Idx → EReal)
      = concatenate S1024x1056x1x1 1 [⟨S1024x1024x1x1, xArr m c⟩, ⟨S1024x32x1x1, shapeCast S1024x32x1x1
          (Cert.PairwiseL1.pair (shapeCast S1024x32x8 (Cert.PairwiseL1.prod
            (shapeCast S1024x1024 (xArr m c) shapeCasts_S1024x1024x1x1_S1024x1024)
            (shapeCast S1024x256 (tArr m c) shapeCasts_S1024x32x8_S1024x256)) shapeCasts_S1024x256_S1024x32x8))
          shapeCasts_S1024x32_S1024x32x1x1⟩] concatenates_S1024x1024x1x1_S1024x32x1x1_S1024x1056x1x1_d1 := by
  rw [result0 m ρ c, pair_eq m ρ c, prod3_eq m ρ c]

end Cert.KernelIdeal.ResultValue

end
-- ==== Proof.RefSide.lean ====
import proofs.«111433_j85246510891072_1_alg».proof.Proof.Gen.ReferenceIdeal.Run
import proofs.«111433_j85246510891072_1_alg».proof.Proof.Gen.ReferenceIdeal.Read
import proofs.«111433_j85246510891072_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.PairwiseL1

variable (x : S1024x1024x1x1.Idx → EReal) (t : S1024x32x8.Idx → EReal)

/-! ## The reference's product is the product -/

theorem lidx_eq (r : Fin 1024) (q : Fin 256) (k : Fin 1024) : lidx_main_v2 (ix2 r q) k = ix2 r k :=
  funext fun a => Fin.ext (by match a with | ⟨0, _⟩ => rfl | ⟨1, _⟩ => rfl)
theorem ridx_eq (r : Fin 1024) (q : Fin 256) (k : Fin 1024) : ridx_main_v2 (ix2 r q) k = ix2 k q :=
  funext fun a => Fin.ext (by match a with | ⟨0, _⟩ => rfl | ⟨1, _⟩ => rfl)

theorem ref_prod : val_main_v2 (F := Ideal) x t = prod (val_main_v0 (F := Ideal) x) (val_main_v1 (F := Ideal) t) := by
  funext i
  obtain ⟨r, q, rfl⟩ : ∃ (r : Fin 1024) (q : Fin 256), i = ix2 r q := ⟨i 0, i 1, eq_ix2 i⟩
  rw [val_main_v2_apply, prod_apply]
  simp only [lidx_eq, ridx_eq]

/-! ## The reference's pairwise sum is the pairwise sum -/

theorem idx_row (a : Fin 1024) (o : Fin 32) (j : Fin 1024) (k : Fin 8) :
    idx_main_v4 (idx_main_v6 (idx_main_v10 (idx_main_v13 (ix2 a o) j) k)) = ix3 a o k :=
  funext fun d => Fin.ext (by match d with | ⟨0, _⟩ => rfl | ⟨1, _⟩ => rfl | ⟨2, _⟩ => rfl)
theorem idx_other (a : Fin 1024) (o : Fin 32) (j : Fin 1024) (k : Fin 8) :
    idx_main_v5 (idx_main_v7 (idx_main_v10 (idx_main_v13 (ix2 a o) j) k)) = ix3 j o k :=
  funext fun d => Fin.ext (by match d with | ⟨0, _⟩ => rfl | ⟨1, _⟩ => rfl | ⟨2, _⟩ => rfl)

theorem ref_pair : val_main_v15 (F := Ideal) x t = pair (val_main_v3 (F := Ideal) x t) := by
  funext i
  obtain ⟨a, o, rfl⟩ : ∃ (a : Fin 1024) (o : Fin 32), i = ix2 a o := ⟨i 0, i 1, eq_ix2 i⟩
  rw [pair_apply, val_main_v15_apply, val_main_v13_apply, val_main_v14_apply, val_main_cst_0_apply, val_main_cst_1_apply]
  simp only [val_main_v12_apply, val_main_v11_apply, val_main_v10_apply, val_main_v9_apply, val_main_v8_apply,
    val_main_v6_apply, val_main_v4_apply, val_main_v7_apply, val_main_v5_apply, val_main_cst_apply, idx_row, idx_other]
  simp only [Ideal.subf_def, Ideal.ofBits_def, Ideal.ofBits_zero_f32, zero_add, Ideal.hostUnary_exp_def, Ideal.hostNegf_def,
    Ideal.negf_def, Ideal.hostAbsf_def]

/-! ## The reference's result as one function of the two arguments -/

/-- The reference returns its first argument (reshaped to a matrix and back), then the pairwise sums over the product,
    joined along axis 1. -/
theorem ref_result :
    val_main_v18 (F := Ideal) x t
      = concatenate S1024x1056x1x1 1 [⟨S1024x1024x1x1, x⟩, ⟨S1024x32x1x1, shapeCast S1024x32x1x1
          (pair (shapeCast S1024x32x8 (prod
            (shapeCast S1024x1024 x shapeCasts_S1024x1024x1x1_S1024x1024)
            (shapeCast S1024x256 t shapeCasts_S1024x32x8_S1024x256)) shapeCasts_S1024x256_S1024x32x8))
          shapeCasts_S1024x32_S1024x32x1x1⟩] concatenates_S1024x1024x1x1_S1024x32x1x1_S1024x1056x1x1_d1 := by
  unfold val_main_v18 val_main_v17 val_main_v16
  rw [ref_pair x t]
  unfold val_main_v3
  rw [ref_prod x t]
  unfold val_main_v0 val_main_v1
  rw [shapeCast_shapeCast]

end Cert.ReferenceIdeal.RefValue

end
-- ==== Proof.lean ====
/-
  The certificate: the kernel computes `M = xf · Tf` in one tiled matrix product (four row blocks of 256), reads `M`
  as [1024, 32, 8] through two transposed copies, and in a second call (sixteen row blocks of 64) forms, for each row `i`
  and channel `o`,

      out (i, o) = (∑ j, exp (-(∑ k, |M (i, o, k) - M (j, o, k)|))) - 1,

  the eight terms of the inner sum accumulated one after the other from zero, the outer sum taken along the lanes; the
  result is the first argument with `out` joined after it along axis 1. The reference forms the same product with one
  `dot_general`, the differences by two broadcasts, and both sums by host reductions. On the extended reals the two are
  one function of the arguments: sums there are commutative and associative, `0 + x = x` and `0 - x = -x` hold for every
  `x`, and the tiling only decides which block an entry is computed in — so the precondition is never opened.

  The three frames are the generated ones (the reference's is its generated run with the result dropped); the ideal pass
  rewrote nothing, so `preserves` is trivial; `algebraic` puts the kernel's run with its result named (the generated launch
  called once more, reading the result buffer too) beside the reference's generated run, each result rewritten to the one
  function `concatenate [x, reshape (pair (reshape (prod (reshape x) (reshape T))))]`.
-/
import proofs.«111433_j85246510891072_1_alg».proof.Defs
import proofs.«111433_j85246510891072_1_alg».proof.Proof.Gen.Kernel
import proofs.«111433_j85246510891072_1_alg».proof.Proof.Gen.Kernel.Frame
import proofs.«111433_j85246510891072_1_alg».proof.Proof.Gen.KernelIdeal
import proofs.«111433_j85246510891072_1_alg».proof.Proof.Gen.KernelIdeal.Frame
import proofs.«111433_j85246510891072_1_alg».proof.Proof.Gen.ReferenceIdeal
import proofs.«111433_j85246510891072_1_alg».proof.Proof.Gen.ReferenceIdeal.Run
import proofs.«111433_j85246510891072_1_alg».proof.Proof.Gen.ReferenceIdeal.Read
import proofs.«111433_j85246510891072_1_alg».proof.Proof.Gen.Pre_finite_inputs
import proofs.«111433_j85246510891072_1_alg».proof.Proof.KRun
import proofs.«111433_j85246510891072_1_alg».proof.Proof.KValue
import proofs.«111433_j85246510891072_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result at one function of the arguments; the arguments agree, so the results do. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, (θ_run Cert.KernelIdeal.defs _ _).mono
    (fun r h c => ⟨(h c).1.trans (Cert.KernelIdeal.ResultValue.result_eq m ρ c), (h c).2⟩)
    (Cert.KernelIdeal.Gen.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
